-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S300x50000 : Shape := ⟨2, ![300, 50000]⟩
abbrev S50000x300 : Shape := ⟨2, ![50000, 300]⟩
abbrev S_ : Shape := ⟨0, ![]⟩

class Facts : Prop where
  bcast_S_S300x50000 : S_.BroadcastsInDim S300x50000 (![] : Fin 0 → Fin S300x50000.rank)
  reducesTo_S300x50000_S_d0_1 : S300x50000.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_

variable [Facts]

def fn {F : FTy → Type} [FloatOps F] (main_arg0 : IVec S4096 32) (main_arg1 : FVec F S300x50000 .f32) (main_arg2 : FVec F S50000x300 .f32) : IVec S_ 1 :=
  let main_v0 : FVec F S300x50000 .f32 := Host.absf main_arg1
  let main_cst : FVec F S_ .f32 := constant S_ .f32 0x7F800000#32
  let main_v1 : FVec F S300x50000 .f32 := broadcastInDim S300x50000 ![] bcast_S_S300x50000 main_cst
  let main_v2 : IVec S300x50000 1 := cmpf .olt main_v0 main_v1
  let main_c : IVec S_ 1 := constantI S_ 1 1#1
  let main_v3 : IVec S_ 1 := (fun x v => Host.reduce IntOp.andi x v reducesTo_S300x50000_S_d0_1 h_S_) main_v2 main_c
  let main_v4 : FVec F S50000x300 .f32 := Host.absf main_arg2
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  main_v8
-- ==== Kernel.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S300x4096 : Shape := ⟨2, ![300, 4096]⟩
abbrev S4096x300 : Shape := ⟨2, ![4096, 300]⟩
abbrev S51200x300 : Shape := ⟨2, ![51200, 300]⟩
abbrev S4096x51200 : Shape := ⟨2, ![4096, 51200]⟩
abbrev S512x300 : Shape := ⟨2, ![512, 300]⟩
abbrev S2048x300 : Shape := ⟨2, ![2048, 300]⟩
abbrev S512x2048 : Shape := ⟨2, ![512, 2048]⟩
abbrev S4096x50000 : Shape := ⟨2, ![4096, 50000]⟩

abbrev nBuf : Space → Nat
  | .hbm => 34
  | .vmem => 6
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S300x4096, .f32⟩
  | .hbm, ⟨22, _⟩ => ⟨S300x4096, .i1⟩
  | .hbm, ⟨23, _⟩ => ⟨S_, .f32⟩
  | .hbm, ⟨24, _⟩ => ⟨S300x4096, .f32⟩
  | .hbm, ⟨25, _⟩ => ⟨S300x4096, .f32⟩
  | .hbm, ⟨26, _⟩ => ⟨S4096x300, .f32⟩
  | .hbm, ⟨27, _⟩ => ⟨S4096x300, .bf16⟩
  | .hbm, ⟨28, _⟩ => ⟨S50000x300, .bf16⟩
  | .hbm, ⟨29, _⟩ => ⟨S_, .i32⟩
  | .hbm, ⟨30, _⟩ => ⟨S_, .bf16⟩
  | .hbm, ⟨31, _⟩ => ⟨S51200x300, .bf16⟩
  | .hbm, ⟨32, _⟩ => ⟨S4096x51200, .f32⟩
  | .hbm, ⟨33, _⟩ => ⟨S4096x50000, .f32⟩
  | .local _ .vmem, ⟨0, _⟩ => ⟨S512x300, .bf16⟩
  | .local _ .vmem, ⟨1, _⟩ => ⟨S512x300, .bf16⟩
  | .local _ .vmem, ⟨2, _⟩ => ⟨S2048x300, .bf16⟩
  | .local _ .vmem, ⟨3, _⟩ => ⟨S2048x300, .bf16⟩
  | .local _ .vmem, ⟨4, _⟩ => ⟨S512x2048, .f32⟩
  | .local _ .vmem, ⟨5, _⟩ => ⟨S512x2048, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_call1_v0 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x300 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x300 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S300x4096_1 : S4096.BroadcastsInDim S300x4096 (![1] : Fin 1 → Fin S300x4096.rank)
  bcast_S_S300x4096 : S_.BroadcastsInDim S300x4096 (![] : Fin 0 → Fin S300x4096.rank)
  transposes_S300x4096_S4096x300_1_0 : S300x4096.Transposes [1, 0] S4096x300
  bitsLt_bf16_f32 : FTy.bits .bf16 < FTy.bits .f32
  pads_S50000x300_S51200x300_012000_000 : S50000x300.Pads (![0, 0] : Fin 2 → Nat) ![1200, 0] ![0, 0] S51200x300
  inb_S512x300_S512x300_0_0 : ∀ a, (![0, 0] : Fin 2 → Nat) a + S512x300.size a ≤ S512x300.size a
  h_S512x300 : 0 < S512x300.numel
  shapeCasts_S512x300_S512x300 : S512x300.ShapeCasts S512x300
  inb_S2048x300_S2048x300_0_0 : ∀ a, (![0, 0] : Fin 2 → Nat) a + S2048x300.size a ≤ S2048x300.size a
  h_S2048x300 : 0 < S2048x300.numel
  shapeCasts_S2048x300_S2048x300 : S2048x300.ShapeCasts S2048x300
  inb_S512x2048_S512x2048_0_0 : ∀ a, (![0, 0] : Fin 2 → Nat) a + S512x2048.size a ≤ S512x2048.size a
  h_S512x2048 : 0 < S512x2048.numel
  slices_S4096x51200_S4096x50000_0_0 : S4096x51200.Slices ![0, 0] S4096x50000
  gather_S300x50000_S4096x1_S300x4096_0_1_n_n_1_1_3001_wf : GatherDims.WF S300x50000 S4096x1 S300x4096 [0] [1] [] [1] [] 1 ![300, 1]
  dot_S512x300_S2048x300_S512x2048_1_1_0_0_n_n_wf : DotDims.WF S512x300 S2048x300 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x300.size a ≤ S4096x300.size a
  hwx0_0 : ∀ i : grid0.Coords, EltTy.bits .bf16 = 32 ∨ (Rect.block (s := S4096x300) S512x300.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x300.size a ≤ S51200x300.size a
  hwx0_1 : ∀ i : grid0.Coords, EltTy.bits .bf16 = 32 ∨ (Rect.block (s := S51200x300) S2048x300.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x51200.size a
  hwx0_2 : ∀ i : grid0.Coords, EltTy.bits .f32 = 32 ∨ (Rect.block (s := S4096x51200) S512x2048.size (cc0_transform_2 i) (hinb0_2 i)).WholeWords (EltTy.packing .f32)

variable [Facts₀]

def gather_S300x50000_S4096x1_S300x4096_0_1_n_n_1_1_3001 : GatherDims S300x50000 S4096x1 S300x4096 where
  offsetDims := [0]
  collapsedSliceDims := [1]
  operandBatchingDims := []
  startIndicesBatchingDims := []
  startIndexMap := [1]
  indexVectorDim := 1
  sliceSizes := ![300, 1]
  wf := gather_S300x50000_S4096x1_S300x4096_0_1_n_n_1_1_3001_wf
def dot_S512x300_S2048x300_S512x2048_1_1_0_0_n_n : DotDims S512x300 S2048x300 S512x2048 where
  lhsContracting := [1]
  rhsContracting := [1]
  lhsNonContracting := [0]
  rhsNonContracting := [0]
  lhsBatch := []
  rhsBatch := []
  wf := dot_S512x300_S2048x300_S512x2048_1_1_0_0_n_n_wf

abbrev win0_0 : Pipeline.Window sig grid0 :=
  Pipeline.Window.ofSpec (Memref.whole main_v2) S512x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x300.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S300x50000 : Shape := ⟨2, ![300, 50000]⟩
abbrev S50000x300 : Shape := ⟨2, ![50000, 300]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x300 : Shape := ⟨2, ![4096, 300]⟩
abbrev S4096x50000 : Shape := ⟨2, ![4096, 50000]⟩

abbrev nBuf : Space → Nat
  | .hbm => 28
  | .vmem => 0
  | .smem => 0
  | _ => 0

abbrev bufTy : (tb : Table) → Fin (tcTables nBuf tb) → BufTy
  | .hbm, ⟨0, _⟩ => ⟨S4096, .i32⟩
  | .hbm, ⟨1, _⟩ => ⟨S300x50000, .f32⟩
  | .hbm, ⟨2, _⟩ => ⟨S50000x300, .f32⟩
  | .hbm, ⟨3, _⟩ => ⟨S50000x300, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x300, .f32⟩
  | .hbm, ⟨23, _⟩ => ⟨S4096x300, .i1⟩
  | .hbm, ⟨24, _⟩ => ⟨S_, .f32⟩
  | .hbm, ⟨25, _⟩ => ⟨S4096x300, .f32⟩
  | .hbm, ⟨26, _⟩ => ⟨S4096x300, .f32⟩
  | .hbm, ⟨27, _⟩ => ⟨S4096x50000, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  transposes_S300x50000_S50000x300_1_0 : S300x50000.Transposes [1, 0] S50000x300
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x300_0 : S4096.BroadcastsInDim S4096x300 (![0] : Fin 1 → Fin S4096x300.rank)
  bcast_S_S4096x300 : S_.BroadcastsInDim S4096x300 (![] : Fin 0 → Fin S4096x300.rank)
  gather_S50000x300_S4096x1_S4096x300_1_0_n_n_0_1_1300_wf : GatherDims.WF S50000x300 S4096x1 S4096x300 [1] [0] [] [0] [] 1 ![1, 300]
  dot_S4096x300_S50000x300_S4096x50000_1_1_0_0_n_n_wf : DotDims.WF S4096x300 S50000x300 S4096x50000 [1] [1] [0] [0] [] []

variable [Facts₀]

def gather_S50000x300_S4096x1_S4096x300_1_0_n_n_0_1_1300 : GatherDims S50000x300 S4096x1 S4096x300 where
  offsetDims := [1]
  collapsedSliceDims := [0]
  operandBatchingDims := []
  startIndicesBatchingDims := []
  startIndexMap := [0]
  indexVectorDim := 1
  sliceSizes := ![1, 300]
  wf := gather_S50000x300_S4096x1_S4096x300_1_0_n_n_0_1_1300_wf
def dot_S4096x300_S50000x300_S4096x50000_1_1_0_0_n_n : DotDims S4096x300 S50000x300 S4096x50000 where
  lhsContracting := [1]
  rhsContracting := [1]
  lhsNonContracting := [0]
  rhsNonContracting := [0]
  lhsBatch := []
  rhsBatch := []
  wf := dot_S4096x300_S50000x300_S4096x50000_1_1_0_0_n_n_wf

class Facts : Prop extends Facts₀ where

variable [Facts]
-- ==== Proof.LibRowDots.lean ====
/-
  Two matrices multiplied "rows against rows": the product of an [M, K] array and an [N, K] array that contracts
  the LAST axis of both, so that entry (p, q) of the [M, N] result is the dot product of row p of the first with
  row q of the second. These are the dimension numbers of a matmul written 'bd,vd->bv'; a kernel's block product
  and the host's dot_general over the whole arrays have them alike, at different extents.

  At the ideal values both operations, read at an index, are the plain sum over the K positions of the contracted
  axis (the kernel's into a zero accumulator): `matmul_zero_eq_rowDots`, `dotGeneral_eq_rowDots`. The sum is
  over `Fin K` in its natural order on both sides, so two such products over equal rows are equal term by term and
  nothing about the extended reals' arithmetic is used.
-/
import Idealize.ShloMosaic.PureOps.Ideal.Laws
import Idealize.ShloMosaic.Lib.ValueIdx

noncomputable section

open scoped BigOperators

namespace Cert.RowDots

open Idealize.ShloMosaic Idealize.ShloMosaic.ValueIdx

variable {M N K : Nat}

/-- Entry (p, q) is the dot product of row p of `A` with row q of `B`, over the extended reals. -/
def rowDots (A : (⟨2, ![M, K]⟩ : Shape).Idx → EReal) (B : (⟨2, ![N, K]⟩ : Shape).Idx → EReal) :
    (⟨2, ![M, N]⟩ : Shape).Idx → EReal :=
  fun i => ∑ k : Fin K, A (ix2 (i 0) k) * B (ix2 (i 1) k)

theorem rowDots_apply (A : (⟨2, ![M, K]⟩ : Shape).Idx → EReal) (B : (⟨2, ![N, K]⟩ : Shape).Idx → EReal)
    (p : Fin M) (q : Fin N) : rowDots A B (ix2 p q) = ∑ k : Fin K, A (ix2 p k) * B (ix2 q k) := rfl

/-- Rows that agree give the same dot products: entry (p, q) depends on row p of `A` and row q of `B` alone. -/
theorem rowDots_congr_rows {M' N' : Nat} (A : (⟨2, ![M, K]⟩ : Shape).Idx → EReal) (B : (⟨2, ![N, K]⟩ : Shape).Idx → EReal)
    (A' : (⟨2, ![M', K]⟩ : Shape).Idx → EReal) (B' : (⟨2, ![N', K]⟩ : Shape).Idx → EReal)
    (p : Fin M) (q : Fin N) (p' : Fin M') (q' : Fin N')
    (hA : ∀ k, A (ix2 p k) = A' (ix2 p' k)) (hB : ∀ k, B (ix2 q k) = B' (ix2 q' k)) :
    rowDots A B (ix2 p q) = rowDots A' B' (ix2 p' q') := by
  rw [rowDots_apply, rowDots_apply]
  exact Finset.sum_congr rfl fun k _ => by rw [hA k, hB k]

/-- The dimension numbers: both operands contracted on axis 1, their axes 0 free, no batch axis. -/
abbrev dims (M K N : Nat) : DotDims ⟨2, ![M, K]⟩ ⟨2, ![N, K]⟩ ⟨2, ![M, N]⟩ := DotDims.transposedRhs M K N

/-- Dimension numbers are their six lists: a record with these lists is `dims`. -/
theorem eq_dims (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = []) : d = dims M K N := by
  cases d
  simp only at hlc hrc hln hrn hlb hrb
  subst hlc hrc hln hrn hlb hrb
  rfl

/-! The operand indices, axis by axis: the free axis reads the result's coordinate, the contracted axis the position. -/

theorem lhs_free (i : (⟨2, ![M, N]⟩ : Shape).Idx) (q : (dims M K N).contr.Idx) :
    ((dims M K N).lhsIdx i q 0).val = (i 0).val := by
  unfold DotDims.lhsIdx
  rw [dif_neg (show ¬(0 : Fin 2) ∈ (dims M K N).lhsBatch from List.not_mem_nil),
    dif_pos (show (0 : Fin 2) ∈ (dims M K N).lhsNonContracting from List.mem_singleton.mpr rfl)]
  rfl

theorem lhs_contracted (i : (⟨2, ![M, N]⟩ : Shape).Idx) (q : (dims M K N).contr.Idx) :
    ((dims M K N).lhsIdx i q 1).val = (q ⟨0, Nat.one_pos⟩).val :=
  (dims M K N).lhsIdx_val_of_single rfl i q

theorem rhs_free (i : (⟨2, ![M, N]⟩ : Shape).Idx) (q : (dims M K N).contr.Idx) :
    ((dims M K N).rhsIdx i q 0).val = (i 1).val := by
  unfold DotDims.rhsIdx
  rw [dif_neg (show ¬(0 : Fin 2) ∈ (dims M K N).rhsBatch from List.not_mem_nil),
    dif_pos (show (0 : Fin 2) ∈ (dims M K N).rhsNonContracting from List.mem_singleton.mpr rfl)]
  rfl

theorem rhs_contracted (i : (⟨2, ![M, N]⟩ : Shape).Idx) (q : (dims M K N).contr.Idx) :
    ((dims M K N).rhsIdx i q 1).val = (q ⟨0, Nat.one_pos⟩).val :=
  (dims M K N).rhsIdx_val_of_single rfl i q

/-- The contraction's sum, re-indexed by the contracted axis's one coordinate, is the rows' dot product. -/
theorem contraction_eq_rowDots (l : (⟨2, ![M, K]⟩ : Shape).Idx → EReal) (r : (⟨2, ![N, K]⟩ : Shape).Idx → EReal)
    (i : (⟨2, ![M, N]⟩ : Shape).Idx) :
    ∑ q : (dims M K N).contr.Idx, l ((dims M K N).lhsIdx i q) * r ((dims M K N).rhsIdx i q) = rowDots l r i := by
  unfold rowDots
  rw [← Equiv.sum_comp (contrEquiv1 (dims M K N) K rfl rfl).symm]
  refine Finset.sum_congr rfl fun k _ => ?_
  have hk := contrEquiv1_symm_val (dims M K N) K rfl rfl k
  have el : (dims M K N).lhsIdx i ((contrEquiv1 (dims M K N) K rfl rfl).symm k) = ix2 (i 0) k :=
    funext fun a => Fin.ext (by
      match a with
      | ⟨0, _⟩ => exact lhs_free _ _
      | ⟨1, _⟩ => exact (lhs_contracted _ _).trans hk)
  have er : (dims M K N).rhsIdx i ((contrEquiv1 (dims M K N) K rfl rfl).symm k) = ix2 (i 1) k :=
    funext fun a => Fin.ext (by
      match a with
      | ⟨0, _⟩ => exact rhs_free _ _
      | ⟨1, _⟩ => exact (rhs_contracted _ _).trans hk)
  show l _ * r _ = l (ix2 (i 0) k) * r (ix2 (i 1) k)
  rw [el, er]
  rfl

/-- A kernel's matmul with these dimension numbers into the zero accumulator is the rows' dot products. -/
theorem matmul_zero_eq_rowDots {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂) :
    matmul d prec l r (constant ⟨2, ![M, N]⟩ .f32 0x00000000#32) = rowDots l r := by
  obtain rfl := eq_dims d hlc hrc hln hrn hlb hrb
  funext i
  simp only [matmul]
  rw [Ideal.matmul_constant_zero_apply]
  exact contraction_eq_rowDots l r i

/-- The host's dot_general with these dimension numbers is the rows' dot products, whatever its schedule key. -/
theorem dotGeneral_eq_rowDots {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂) :
    Host.dotGeneral d prec l r = rowDots l r := by
  obtain rfl := eq_dims d hlc hrc hln hrn hlb hrb
  funext i
  simp only [Host.dotGeneral]
  rw [Ideal.dotGeneral_apply]
  exact contraction_eq_rowDots l r i

end Cert.RowDots

end
-- ==== Proof.EmbedDecodeSpec.lean ====
/-
  What both programs compute, as one function of the three arguments.

  The token ids `x : i32[4096]` select columns of `w_enc : f32[300, 50000]`; the selected columns, laid as rows
  `hidden : [4096, 300]`, are multiplied against the rows of `w_dec : f32[50000, 300]`:
      logits[b, v] = Σ_k hidden[b, k] · w_dec[v, k].
  jnp.take first normalises an id (a negative id counts from the end: `x + 50000`), the gather then reads the
  normalised id as a signed integer clamped into [0, 49999], and a row whose normalised id is outside [0, 49999]
  is filled with the quiet NaN word 0x7FC00000 instead. The normalisation (`startIdx`) and the range test
  (`inRange`) are the same integer operations on `x` in both programs, so they are carried as they are printed
  and never evaluated; so is the fill word.
-/
import proofs.«152578_j78365973283493_1_alg».proof.Proof.LibRowDots
import Idealize.ShloMosaic.PureOps

noncomputable section

namespace Cert.EmbedDecode

open Idealize.ShloMosaic Idealize.ShloMosaic.ValueIdx Cert.RowDots

abbrev Sc : Shape := ⟨0, ![]⟩
abbrev One : Shape := ⟨1, ![1]⟩
abbrev OneOne : Shape := ⟨2, ![1, 1]⟩
abbrev Tokens : Shape := ⟨1, ![4096]⟩
abbrev TokensCol : Shape := ⟨2, ![4096, 1]⟩

theorem sc_to_tokens : Sc.BroadcastsInDim Tokens (![] : Fin 0 → Fin Tokens.rank) := by decide
theorem tokens_to_col : Tokens.BroadcastsInDim TokensCol (![0] : Fin 1 → Fin TokensCol.rank) := by decide
theorem sc_to_col : Sc.BroadcastsInDim TokensCol (![] : Fin 0 → Fin TokensCol.rank) := by decide
theorem one_to_oneone : One.BroadcastsInDim OneOne (![1] : Fin 1 → Fin OneOne.rank) := by decide
theorem oneone_to_col : OneOne.BroadcastsInDim TokensCol (![0, 1] : Fin 2 → Fin TokensCol.rank) := by decide
theorem col_reduces : TokensCol.ReducesTo [1] Tokens := by decide
theorem sc_pos : 0 < Sc.numel := by decide

/-- The normalised ids as a column of start indices: `where(x < 0, x + 50000, x)`, one per row. -/
def startIdx (x : IVec Tokens 32) : IVec TokensCol 32 :=
  broadcastInDim TokensCol ![0] tokens_to_col
    (select (cmpi .slt x (broadcastInDim Tokens ![] sc_to_tokens (constantI Sc 32 0#32)))
      (addi x (broadcastInDim Tokens ![] sc_to_tokens (constantI Sc 32 50000#32))) x)

/-- Per row, whether the normalised id lies in [0, 49999] (the conjunction over the start index's one component). -/
def inRange (x : IVec Tokens 32) : IVec Tokens 1 :=
  Host.reduce IntOp.andi
    (andi (cmpi .sge (startIdx x) (broadcastInDim TokensCol ![] sc_to_col (constantI Sc 32 0#32)))
      (cmpi .sle (startIdx x)
        (broadcastInDim TokensCol ![0, 1] oneone_to_col (broadcastInDim OneOne ![1] one_to_oneone (constantI One 32 49999#32)))))
    (constantI Sc 1 1#1) col_reduces sc_pos

/-- The column of `w_enc` row `b` reads: its start index read signed and clamped into the vocabulary. -/
def column (x : IVec Tokens 32) (b : Fin 4096) : Fin 50000 :=
  ⟨min (startIdx x (ix2 b 0)).toInt.toNat 49999, by omega⟩

/-- The gathered rows: row `b` is column `column x b` of `w_enc` where the id is in range, the fill word elsewhere. -/
def hidden (x : IVec Tokens 32) (wenc : (⟨2, ![300, 50000]⟩ : Shape).Idx → EReal) : (⟨2, ![4096, 300]⟩ : Shape).Idx → EReal :=
  fun i => Scalar.select (inRange x (ix1 (i 0))) (wenc (ix2 (i 1) (column x (i 0)))) (Ideal.ofBits .f32 0x7FC00000#32)

theorem hidden_apply (x : IVec Tokens 32) (wenc : (⟨2, ![300, 50000]⟩ : Shape).Idx → EReal) (b : Fin 4096) (k : Fin 300) :
    hidden x wenc (ix2 b k)
      = Scalar.select (inRange x (ix1 b)) (wenc (ix2 k (column x b))) (Ideal.ofBits .f32 0x7FC00000#32) := rfl

/-- The result: every gathered row against every row of `w_dec`. -/
def logits (x : IVec Tokens 32) (wenc : (⟨2, ![300, 50000]⟩ : Shape).Idx → EReal)
    (wdec : (⟨2, ![50000, 300]⟩ : Shape).Idx → EReal) : (⟨2, ![4096, 50000]⟩ : Shape).Idx → EReal :=
  rowDots (hidden x wenc) wdec

end Cert.EmbedDecode

end
-- ==== Proof.KernelPrologue.lean ====
/-
  The kernel's program before its one region: what the two arrays the region stages hold.

  The left operand `main_v2 : bf16[4096, 300]` is jnp.take of `w_enc` along axis 1 — a gather of whole columns
  into a [300, 4096] slab, NaN-filled where the id is out of range —, transposed, and narrowed to bf16 (the identity
  on extended reals): entry (b, k) is `hidden x w_enc (b, k)`. The right operand `main_v4 : bf16[51200, 300]` is
  `w_dec` narrowed and padded with 1200 rows below: its first 50000 rows are `w_dec`'s.
-/
import proofs.«152578_j78365973283493_1_alg».proof.Proof.Gen.KernelIdeal.Frame
import proofs.«152578_j78365973283493_1_alg».proof.Proof.EmbedDecodeSpec
import Idealize.ShloMosaic.Lib.StableHlo.Run
import Idealize.ShloMosaic.Lib.Pipeline.Value
import Idealize.ShloMosaic.Lib.ValueLayout
import Idealize.ShloMosaic.Lib.KernelVsHost

set_option maxRecDepth 16384

noncomputable section

namespace Cert.KernelIdeal.Prologue

open Cert.KernelIdeal Cert.KernelIdeal.Gen Idealize.ShloMosaic Idealize.ShloMosaic.TcCoe Idealize.SL.Sem
open Idealize.ShloMosaic.ValueIdx Idealize.ShloMosaic.StableHlo Cert.EmbedDecode

local notation "takeCols" => gather_S300x50000_S4096x1_S300x4096_0_1_n_n_1_1_3001

/-- jnp.take along axis 1, read at (k, b): row k of the operand at the column that start index b names, read signed
    and clamped into [0, 49999]. The operand's axis 0 is the offset axis (it follows the result's axis 0), its axis 1
    is collapsed and indexed by the start index's one component. -/
theorem take_cols_apply {α : Type} (w : S300x50000.Idx → α) (s : IVec S4096x1 32) (k : Fin 300) (b : Fin 4096) :
    Host.gather takeCols w s (ix2 k b) = w (ix2 k ⟨min (s (ix2 b 0)).toInt.toNat 49999, by omega⟩) := by
  unfold Host.gather
  congr 1
  funext a
  refine Fin.ext ?_
  match a with
  | ⟨0, _⟩ =>
    show GatherDims.start takeCols (ix2 k b) s 0 + GatherDims.batchCoord takeCols (ix2 k b) 0
      + GatherDims.offCoord takeCols (ix2 k b) 0 = k.val
    rw [GatherDims.batchCoord_eq_zero _ _ _ List.not_mem_nil]
    unfold GatherDims.start GatherDims.offCoord
    rw [dif_neg (show (0 : Fin 2) ∉ GatherDims.startIndexMap takeCols by decide),
      dif_pos (show (0 : Fin 2) ∈ GatherDims.sKept takeCols by decide)]
    simp only [Nat.zero_add, Nat.add_zero]
    rfl
  | ⟨1, _⟩ =>
    show GatherDims.start takeCols (ix2 k b) s 1 + GatherDims.batchCoord takeCols (ix2 k b) 1
      + GatherDims.offCoord takeCols (ix2 k b) 1 = min (s (ix2 b 0)).toInt.toNat 49999
    rw [GatherDims.batchCoord_eq_zero _ _ _ List.not_mem_nil,
      GatherDims.offCoord_eq_zero _ _ _ (show (1 : Fin 2) ∉ GatherDims.sKept takeCols by decide)]
    unfold GatherDims.start
    rw [dif_pos (show (1 : Fin 2) ∈ GatherDims.startIndexMap takeCols by decide)]
    simp only [Nat.add_zero]
    have hsi : GatherDims.siIdx takeCols (ix2 k b)
        ⟨List.idxOf (1 : Fin 2) (GatherDims.startIndexMap takeCols), List.idxOf_lt_length_iff.2 (by decide)⟩ = ix2 b 0 := by
      funext c; refine Fin.ext ?_
      match c with
      | ⟨0, _⟩ => rfl
      | ⟨1, _⟩ => rfl
    rw [hsi]
    rfl

variable (m : (ℓ : Loc nD τ sig) → Buf (Elt Ideal) ℓ)

set_option maxHeartbeats 1000000 in
/-- The left operand as the region finds it: the host operations before the region, composed. -/
theorem lhs_term (c : Dev nD) :
    (V m c main_v2 : S4096x300.Idx → Ideal .bf16)
      = truncf .bf16 (transpose S4096x300 [1, 0]
          (select (broadcastInDim S300x4096 ![1] bcast_S4096_S300x4096_1 (inRange (m ((c : Thread nD τ).loc main_arg0))))
            (Host.gather takeCols (m ((c : Thread nD τ).loc main_arg1)) (startIdx (m ((c : Thread nD τ).loc main_arg0))))
            (broadcastInDim S300x4096 ![] bcast_S_S300x4096 (constant (F := Ideal) S_ .f32 0x7FC00000#32)))
          transposes_S300x4096_S4096x300_1_0) bitsLt_bf16_f32 := by
  dsimp only [V, V0]
  simp only [hostOps0, hostOps0_1, hostOps0_2, List.flatten_cons, List.flatten_nil, List.append_nil, List.cons_append,
    List.nil_append]
  after_results_simp
  rfl

/-- The right operand as the region finds it. -/
theorem rhs_term (c : Dev nD) :
    (V m c main_v4 : S51200x300.Idx → Ideal .bf16)
      = pad S51200x300 ![0, 0] ![1200, 0] ![0, 0] (truncf .bf16 (m ((c : Thread nD τ).loc main_arg2)) bitsLt_bf16_f32)
          (sitofp (F := Ideal) .bf16 (constantI S_ 32 0#32)) pads_S50000x300_S51200x300_012000_000 h_S_ := by
  dsimp only [V, V0]
  simp only [hostOps0, hostOps0_1, hostOps0_2, List.flatten_cons, List.flatten_nil, List.append_nil, List.cons_append,
    List.nil_append]
  after_results
  rfl

/-- Entry (b, k) of the left operand is the gathered row's. -/
theorem lhs_apply (c : Dev nD) (b : Fin 4096) (k : Fin 300) :
    (V m c main_v2 : S4096x300.Idx → Ideal .bf16) (ix2 b k)
      = hidden (m ((c : Thread nD τ).loc main_arg0)) (m ((c : Thread nD τ).loc main_arg1)) (ix2 b k) := by
  rw [lhs_term, hidden_apply]
  rw [truncf_apply, transpose_ix2_apply, select_apply, take_cols_apply]
  rw [broadcastInDim_apply (![1] : Fin 1 → Fin S300x4096.rank) bcast_S4096_S300x4096_1 _ (ix2 k b) (ix1 b)
      (fun a => match a with | ⟨0, _⟩ => rfl),
    broadcastInDim_apply (![] : Fin 0 → Fin S300x4096.rank) bcast_S_S300x4096 _ (ix2 k b) ix0 (fun a => a.elim0)]
  rfl

/-- Row v of the right operand, for v below the vocabulary size, is row v of `w_dec`. -/
theorem rhs_apply (c : Dev nD) (v' : Fin 51200) (v : Fin 50000) (hv : v'.val = v.val) (k : Fin 300) :
    (V m c main_v4 : S51200x300.Idx → Ideal .bf16) (ix2 v' k) = m ((c : Thread nD τ).loc main_arg2) (ix2 v k) := by
  rw [rhs_term]
  rw [pad_apply_of_inside (![0, 0] : Fin 2 → Nat) ![1200, 0] ![0, 0] _ _ pads_S50000x300_S51200x300_012000_000 h_S_
    (ix2 v' k) (ix2 v k) (fun a => match a with
      | ⟨0, _⟩ => by show v'.val = 0 + v.val * (0 + 1); omega
      | ⟨1, _⟩ => by show k.val = 0 + k.val * (0 + 1); omega)]
  rfl

end Cert.KernelIdeal.Prologue

end
-- ==== Proof.KernelRegion.lean ====
/-
  The kernel's one region: what the 200 grid points write back, and the output array after them.

  Point t = (i, j) of the 8 × 25 grid stages rows 512·i … 512·i + 511 of the left operand and rows
  2048·j … 2048·j + 2047 of the right one, multiplies them rows against rows into a zero accumulator, and writes the
  [512, 2048] product to block (i, j) of the [4096, 51200] output. Entry (p, q) of a block product depends on row p of
  the left block and row q of the right block alone, so it is entry (512·i + p, 2048·j + q) of the product of the WHOLE
  arrays: every point writes back a block of that one function (`product`), the blocks cover the array, and the array
  after the run is `product`.
-/
import proofs.«152578_j78365973283493_1_alg».proof.Proof.Gen.KernelIdeal.Frame
import proofs.«152578_j78365973283493_1_alg».proof.Proof.LibRowDots
import Idealize.ShloMosaic.Lib.Pipeline.Value

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx Cert.RowDots
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The body's one store holds the block product: the shape casts are of a shape to itself, the accumulator is zero. -/
theorem payload_eq (x0 : Vec Ideal S512x300 .bf16) (x1 : Vec Ideal S2048x300 .bf16) :
    k0_pay1 x0 x1 = rowDots x0 x1 := by
  unfold k0_pay1
  dsimp only
  rw [shapeCast_self, shapeCast_self]
  exact matmul_zero_eq_rowDots dot_S512x300_S2048x300_S512x2048_1_1_0_0_n_n rfl rfl rfl rfl rfl rfl none x0 x1

/-- The two staged arrays as the region finds them, and their blocks at a point, at their literal types. -/
abbrev lhsArr (c : Dev nD) : S4096x300.Idx → EReal := V m c main_v2
abbrev rhsArr (c : Dev nD) : S51200x300.Idx → EReal := V m c main_v4
abbrev lhsBlk (c : Dev nD) (t : Fin cfg0.N) : S512x300.Idx → EReal := iblk m c 0 t
abbrev rhsBlk (c : Dev nD) (t : Fin cfg0.N) : S2048x300.Idx → EReal := iblk m c 1 t

/-- The two staged arrays, every row against every row. -/
def product (c : Dev nD) : S4096x51200.Idx → EReal := rowDots (lhsArr m c) (rhsArr m c)

/-- The printed index maps over the grid: the left window moves with the output's row blocks, the right window with
    its column blocks, neither moves along the contracted axis, and the output's block indices fill 8 × 25. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7
    ∧ win0_2.index t (1 : Fin 2) ≤ 24 :=
  (by decide +kernel : ∀ t : Fin grid0.N, _)

/-- Every block of the output is some point's. -/
theorem idx_onto : ∀ (q0 : Fin 8) (q1 : Fin 25), ∃ t : Fin cfg0.N, win0_2.index t = ![q0.val, q1.val] :=
  (by decide +kernel : ∀ (q0 : Fin 8) (q1 : Fin 25), ∃ t : Fin grid0.N, win0_2.index t = ![q0.val, q1.val])

/-- WHAT POINT `t` WRITES BACK is block `t` of `product`. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero zero_offsets]
  simp only [View.ld_unit_zero (S := S512x300) zero_offsets, View.ld_unit_zero (S := S2048x300) zero_offsets]
  rw [payload_eq]
  obtain ⟨e0, e1, e2, e3, e4, e5⟩ := idx_facts t
  funext j
  show ∑ k : Fin 300, lhsBlk m c t (ix2 (j 0) k) * rhsBlk m c t (ix2 (j 1) k)
    = ∑ k : Fin 300, lhsArr m c (ix2 ((((cfg0.win 2).blk t).view.emb j) 0) k)
        * rhsArr m c (ix2 ((((cfg0.win 2).blk t).view.emb j) 1) k)
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 300 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 2048 + 1 * (j 1).val = win0_2.index t (1 : Fin 2) * 2048 + 1 * (j 1).val; omega
    | ⟨1, _⟩ => show win0_1.index t (1 : Fin 2) * 300 + 1 * k.val = k.val; omega
  show lhsArr m c (((cfg0.win 0).blk t).view.emb (ix2 (j 0) k)) * rhsArr m c (((cfg0.win 1).blk t).view.emb (ix2 (j 1) k)) = _
  rw [h0, h1]
  rfl

/-- An index of the output is in point `t`'s block iff each coordinate is in the block's range on its axis. -/
theorem mem_blk (t : Fin cfg0.N) (i : S4096x51200.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v5).slice (win0_2.rect t)).set ↔ _
  rw [View.set_slice_whole, Rect.mem_set_unit]
  exact Iff.rfl

/-- Every index of the output lies in the block of the point whose block indices are its coordinates' quotients. -/
theorem covered (i : S4096x51200.Idx) :
    ∃ t : Fin cfg0.N, (cfg0.win 2).flush t = true ∧ i ∈ ((cfg0.win 2).blk t).view.set := by
  have hi0 : (i 0).val < 4096 := (i 0).isLt
  have hi1 : (i 1).val < 51200 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE OUTPUT ARRAY after the run is `product`. -/
theorem final (c : Dev nD) : (dats m 0 c).arrAt 2 cfg0.N = product m c :=
  (dats m 0 c).arrAt_eq_of_cover 2 (product m c) (fun t _ => flushed_eq m c t) covered

end Cert.KernelIdeal.Region

end
-- ==== Proof.KernelRun.lean ====
/-
  The kernel's program, run: its result is `logits`.

  After the region the one host operation slices columns 0 … 49999 out of the [4096, 51200] product. Entry (b, v) of
  the slice is the dot product of row b of the left operand with row v of the padded right operand; row b of the left
  operand is the gathered row `hidden x w_enc` at b, and row v, below the vocabulary size, of the padded operand is row v
  of `w_dec`: the padding rows are never read.
-/
import proofs.«152578_j78365973283493_1_alg».proof.Proof.KernelPrologue
import proofs.«152578_j78365973283493_1_alg».proof.Proof.KernelRegion

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.StableHlo Cert.EmbedDecode Cert.RowDots
open Cert.KernelIdeal.Prologue Cert.KernelIdeal.Region

variable (m : (ℓ : Loc nD τ sig) → Buf (Elt Ideal) ℓ) (ρ : Dev nD → PrngReg)

/-- What the host line after the region leaves in the result buffer. -/
theorem result_eq (c : Dev nD) :
    Pipeline.afterTail₀ cfgs (dats m) 0 (V0 m) [hostOps1] c main_v6
      = logits (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  have hw : Pipeline.withArrays spec0 c (V0 m c) (fun w => (dats m 0 c).arrAt w cfg0.N) (Proc.devRef .tc main_v5)
      = product m c :=
    (Pipeline.withArrays_arr spec0 launch0.win.arr_inj c _ _ 2).trans (final m c)
  rw [hw]
  funext i
  obtain ⟨b, v, rfl⟩ : ∃ (b : Fin 4096) (v : Fin 50000), i = ix2 b v := ⟨i 0, i 1, eq_ix2 i⟩
  rw [extractStridedSlice_apply (![0, 0] : Fin 2 → Nat) (product m c) slices_S4096x51200_S4096x50000_0_0 (ix2 b v)
    (ix2 b ⟨v.val, by omega⟩) (fun a => match a with
      | ⟨0, _⟩ => by show b.val = 0 + b.val; omega
      | ⟨1, _⟩ => by show v.val = 0 + v.val; omega)]
  exact rowDots_congr_rows _ _ _ _ b ⟨v.val, by omega⟩ b v (fun k => lhs_apply m c b k)
    (fun k => rhs_apply m c ⟨v.val, by omega⟩ v rfl k)

/-- At the ideal values, from any memory with zero counters: every weakly fair execution of @main terminates with the
    result buffer at `logits` of the arguments, and the arguments unchanged. -/
theorem run : θ_run defs (onTc (τ := τ) (main (F := Ideal))) ⟨m, fun _ => 0, ρ⟩ fun r => ∀ c : Dev nD,
      r.2.mem ((c.tc : Thread nD τ).loc main_v6)
          = logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KernelValue

end
-- ==== Proof.ReferenceRun.lean ====
/-
  The reference program, run: its @main is a straight line of 25 host operations once the call of jnp.take (and the
  call of jnp.where inside it) is unfolded at its call site — the transpose of `w_enc`, take's 23 operations over the
  call's own buffers, and the dot_general. Every weakly fair execution ends with each buffer at the fold of those
  operations over the launch contents; read at the result, that fold is the dot_general of the NaN-filled gather of
  rows of the transposed `w_enc` with `w_dec`, the index normalisation and the range test being the printed integer
  operations on `x` (`startIdx`, `inRange`).
-/
import proofs.«152578_j78365973283493_1_alg».proof.Proof.Gen.ReferenceIdeal
import proofs.«152578_j78365973283493_1_alg».proof.Proof.EmbedDecodeSpec
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem
open Idealize.ShloMosaic.StableHlo Cert.EmbedDecode

variable {F : FTy → Type} [FloatOps F]

/-- @main's operations in order, the two calls unfolded: the transpose; jnp.take's comparison with zero, the sum with
    the vocabulary size, jnp.where's select, the start indices as a column, the two range comparisons and their
    conjunction over the index vector's axis, the gather of rows, the range test laid along each row, the fill word
    laid everywhere, the select; the dot_general. -/
abbrev ops : List (HloOp τ sig (Elt F)) :=
  [ unary main_arg1 main_v0 ((transpose S50000x300 [1, 0] · transposes_S300x50000_S50000x300_1_0) : (⟨S300x50000, .f32⟩ : BufTy).Contents (Elt F) → (⟨S50000x300, .f32⟩ : BufTy).Contents (Elt F)),
    TRef.nullary main_call0.c (constantI S_ 32 0#32),
    TRef.unary main_call0.c main_call0.v0 (broadcastInDim S4096 ![] bcast_S_S4096),
    TRef.binary (.of main_arg0) main_call0.v0 main_call0.v1 (cmpi .slt),
    TRef.nullary main_call0.c_0 (constantI S_ 32 50000#32),
    TRef.unary main_call0.c_0 main_call0.v2 (broadcastInDim S4096 ![] bcast_S_S4096),
    TRef.binary (.of main_arg0) main_call0.v2 main_call0.v3 addi,
    TRef.ternary main_call0.v1 main_call0.v3 (.of main_arg0) main_call0.call0.v0 select,
    TRef.unary main_call0.call0.v0 main_call0.v5 (broadcastInDim S4096x1 ![0] bcast_S4096_S4096x1_0),
    TRef.nullary main_call0.c_1 (constantI S1 32 49999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_v0) main_call0.v5 main_call0.v13 (fun x i => Host.gather gather_S50000x300_S4096x1_S4096x300_1_0_n_n_0_1_1300 x i),
    TRef.unary main_call0.v12 main_call0.v14 (broadcastInDim S4096x300 ![0] bcast_S4096_S4096x300_0),
    TRef.nullary main_call0.cst (constant S_ .f32 0x7FC00000#32),
    TRef.unary main_call0.cst main_call0.v15 (broadcastInDim S4096x300 ![] bcast_S_S4096x300),
    TRef.ternary main_call0.v14 main_call0.v13 main_call0.v15 main_call0.v16 select,
    binary main_v1 main_arg2 main_v2 ((fun l r => Host.dotGeneral dot_S4096x300_S50000x300_S4096x50000_1_1_0_0_n_n none l r) : (⟨S4096x300, .f32⟩ : BufTy).Contents (Elt F) → (⟨S50000x300, .f32⟩ : BufTy).Contents (Elt F) → (⟨S4096x50000, .f32⟩ : BufTy).Contents (Elt F)) ]

set_option maxRecDepth 4096 in
/-- @main is that straight line: the two functions' bodies unfolded at their calls and the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub ..⟩

/-- The reference's result as one term of its three arguments. -/
def result (x : IVec S4096 32) (wenc : FVec F S300x50000 .f32) (wdec : FVec F S50000x300 .f32) : FVec F S4096x50000 .f32 :=
  Host.dotGeneral dot_S4096x300_S50000x300_S4096x50000_1_1_0_0_n_n none
    (select (broadcastInDim S4096x300 ![0] bcast_S4096_S4096x300_0 (inRange x))
      (Host.gather gather_S50000x300_S4096x1_S4096x300_1_0_n_n_0_1_1300
        (transpose S50000x300 [1, 0] wenc transposes_S300x50000_S50000x300_1_0) (startIdx x))
      (broadcastInDim S4096x300 ![] bcast_S_S4096x300 (constant S_ .f32 0x7FC00000#32)))
    wdec

set_option maxHeartbeats 1000000 in
/-- On every device, from any memory with zero counters: every weakly fair execution of @main terminates with the
    result buffer at `result` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

end Cert.ReferenceIdeal.Run

end
-- ==== Proof.ReferenceValue.lean ====
/-
  The reference's result is `logits`.

  jnp.take along axis 0 of the transposed `w_enc` reads, at (b, k), row `column x b` of the transpose at position k,
  which is `w_enc` at (k, column x b); under the range test laid along each row and the fill word this is
  `hidden x w_enc` at (b, k). The dot_general contracts the last axis of both operands: the gathered rows against
  the rows of `w_dec`.
-/
import proofs.«152578_j78365973283493_1_alg».proof.Proof.ReferenceRun
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx
open Cert.EmbedDecode Cert.RowDots

local notation "takeRows" => gather_S50000x300_S4096x1_S4096x300_1_0_n_n_0_1_1300

/-- jnp.take along axis 0, read at (b, k): position k of the operand's row that start index b names, read signed and
    clamped into [0, 49999]. The operand's axis 0 is collapsed and indexed by the start index's one component, its
    axis 1 is the offset axis (it follows the result's axis 1). -/
theorem take_rows_apply {α : Type} (w : S50000x300.Idx → α) (s : IVec S4096x1 32) (b : Fin 4096) (k : Fin 300) :
    Host.gather takeRows w s (ix2 b k) = w (ix2 ⟨min (s (ix2 b 0)).toInt.toNat 49999, by omega⟩ k) := by
  unfold Host.gather
  congr 1
  funext a
  refine Fin.ext ?_
  match a with
  | ⟨0, _⟩ =>
    show GatherDims.start takeRows (ix2 b k) s 0 + GatherDims.batchCoord takeRows (ix2 b k) 0
      + GatherDims.offCoord takeRows (ix2 b k) 0 = min (s (ix2 b 0)).toInt.toNat 49999
    rw [GatherDims.batchCoord_eq_zero _ _ _ List.not_mem_nil,
      GatherDims.offCoord_eq_zero _ _ _ (show (0 : Fin 2) ∉ GatherDims.sKept takeRows by decide)]
    unfold GatherDims.start
    rw [dif_pos (show (0 : Fin 2) ∈ GatherDims.startIndexMap takeRows by decide)]
    simp only [Nat.add_zero]
    have hsi : GatherDims.siIdx takeRows (ix2 b k)
        ⟨List.idxOf (0 : Fin 2) (GatherDims.startIndexMap takeRows), List.idxOf_lt_length_iff.2 (by decide)⟩ = ix2 b 0 := by
      funext c; refine Fin.ext ?_
      match c with
      | ⟨0, _⟩ => rfl
      | ⟨1, _⟩ => rfl
    rw [hsi]
    rfl
  | ⟨1, _⟩ =>
    show GatherDims.start takeRows (ix2 b k) s 1 + GatherDims.batchCoord takeRows (ix2 b k) 1
      + GatherDims.offCoord takeRows (ix2 b k) 1 = k.val
    rw [GatherDims.batchCoord_eq_zero _ _ _ List.not_mem_nil]
    unfold GatherDims.start GatherDims.offCoord
    rw [dif_neg (show (1 : Fin 2) ∉ GatherDims.startIndexMap takeRows by decide),
      dif_pos (show (1 : Fin 2) ∈ GatherDims.sKept takeRows by decide)]
    simp only [Nat.zero_add, Nat.add_zero]
    rfl

/-- Entry (b, k) of the dot_general's left operand is the gathered row's. -/
theorem gathered_apply (x : IVec S4096 32) (wenc : FVec Ideal S300x50000 .f32) (b : Fin 4096) (k : Fin 300) :
    select (broadcastInDim S4096x300 ![0] bcast_S4096_S4096x300_0 (inRange x))
        (Host.gather takeRows (transpose S50000x300 [1, 0] wenc transposes_S300x50000_S50000x300_1_0) (startIdx x))
        (broadcastInDim S4096x300 ![] bcast_S_S4096x300 (constant (F := Ideal) S_ .f32 0x7FC00000#32)) (ix2 b k)
      = hidden x wenc (ix2 b k) := by
  rw [hidden_apply, select_apply, take_rows_apply, transpose_ix2_apply,
    broadcastInDim_apply (![0] : Fin 1 → Fin S4096x300.rank) bcast_S4096_S4096x300_0 _ (ix2 b k) (ix1 b)
      (fun a => match a with | ⟨0, _⟩ => rfl),
    broadcastInDim_apply (![] : Fin 0 → Fin S4096x300.rank) bcast_S_S4096x300 _ (ix2 b k) ix0 (fun a => a.elim0)]
  rfl

/-- The reference's result term, at the ideal values, is `logits` of the three arguments. -/
theorem result_eq (x : IVec S4096 32) (wenc : FVec Ideal S300x50000 .f32) (wdec : FVec Ideal S50000x300 .f32) :
    Run.result x wenc wdec = logits x wenc wdec := by
  unfold Run.result logits
  rw [dotGeneral_eq_rowDots dot_S4096x300_S50000x300_S4096x50000_1_1_0_0_n_n rfl rfl rfl rfl rfl rfl]
  funext i
  obtain ⟨b, v, rfl⟩ : ∃ (b : Fin 4096) (v : Fin 50000), i = ix2 b v := ⟨i 0, i 1, eq_ix2 i⟩
  exact rowDots_congr_rows _ _ _ _ b v b v (fun k => gathered_apply x wenc b k) (fun _ => rfl)

end Cert.ReferenceIdeal.RefValue

end
-- ==== Proof.lean ====
/-
  The kernel and its reference compute one function of the three arguments, at the ideal values:
      logits[b, v] = Σ_k hidden[b, k] · w_dec[v, k]   (b < 4096, v < 50000, k < 300),
  where hidden[b, ·] is column `x[b]` of `w_enc` — a negative id counted from the end, the id read clamped into the
  vocabulary, the row filled with one fixed NaN word where the id is out of range (Proof/EmbedDecodeSpec.lean).

  The reference gathers rows of the transposed `w_enc` and contracts them with the rows of `w_dec` in one dot_general
  (Proof/ReferenceRun.lean, Proof/ReferenceValue.lean). The kernel gathers columns of `w_enc` and transposes the small
  slab, narrows both operands to bf16 (the identity on extended reals), pads `w_dec` with 1200 rows, multiplies
  512 × 2048 blocks on an 8 × 25 grid into a zero accumulator, and slices the padding's columns away
  (Proof/KernelPrologue.lean, Proof/KernelRegion.lean, Proof/KernelRun.lean). Both sums run over the same 300 positions in
  the same order with the same terms, so they are equal term by term: no law of the extended reals is needed, and
  the precondition (finite float inputs) is never opened. The two gathers read the same entry of `w_enc` because a
  gather's operand index is the clamped start index on the indexed axis and the result's own coordinate on the other.

  The ideal pass rewrote nothing, so `preserves` is `True`. The kernel programs' frames are the generated ones; the
  reference's frame is its run with the result dropped.
-/
import proofs.«152578_j78365973283493_1_alg».proof.Defs
import proofs.«152578_j78365973283493_1_alg».proof.Proof.Gen.Kernel
import proofs.«152578_j78365973283493_1_alg».proof.Proof.Gen.Kernel.Frame
import proofs.«152578_j78365973283493_1_alg».proof.Proof.Gen.KernelIdeal
import proofs.«152578_j78365973283493_1_alg».proof.Proof.Gen.KernelIdeal.Frame
import proofs.«152578_j78365973283493_1_alg».proof.Proof.Gen.ReferenceIdeal
import proofs.«152578_j78365973283493_1_alg».proof.Proof.Gen.Pre_finite_inputs
import proofs.«152578_j78365973283493_1_alg».proof.Proof.KernelRun
import proofs.«152578_j78365973283493_1_alg».proof.Proof.ReferenceValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: the run's post with the result's conjunct dropped. -/
theorem frame_referenceIdeal : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- Both programs end with `logits` of the arguments in their result buffer: the kernel's run states it outright, the
    reference's run ends at its own term of arguments that agree with the kernel's, and that term is `logits`. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
